-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S_ : Shape := ⟨0, ![]⟩

class Facts : Prop where
  bcast_S_S20x1 : S_.BroadcastsInDim S20x1 (![] : Fin 0 → Fin S20x1.rank)
  reducesTo_S20x1_S_d0_1 : S20x1.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x20 : S_.BroadcastsInDim S256x20 (![] : Fin 0 → Fin S256x20.rank)
  reducesTo_S256x20_S_d0_1 : S256x20.ReducesTo [0, 1] S_
  bcast_S_S256x2048 : S_.BroadcastsInDim S256x2048 (![] : Fin 0 → Fin S256x2048.rank)
  reducesTo_S256x2048_S_d0_1 : S256x2048.ReducesTo [0, 1] S_
  bcast_S_S8192 : S_.BroadcastsInDim S8192 (![] : Fin 0 → Fin S8192.rank)
  reducesTo_S8192_S_d0 : S8192.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192 .f32) (main_arg5 : FVec F S2048x2048 .f32) (main_arg6 : FVec F S2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S20x1 .f32) (main_arg1 : FVec F S8192x256 .f32) (main_arg2 : FVec F S256x20 .f32) (main_arg3 : FVec F S256x2048 .f32) (main_arg4 : FVec F S8192 .f32) (main_arg5 : FVec F S2048x2048 .f32) (main_arg6 : FVec F S2048 .f32) : IVec S_ 1 :=
  let main_v0 : FVec F S20x1 .f32 := Host.absf main_arg0
  let main_cst : FVec F S_ .f32 := constant S_ .f32 0x7F800000#32
  let main_v1 : FVec F S20x1 .f32 := broadcastInDim S20x1 ![] bcast_S_S20x1 main_cst
  let main_v2 : IVec S20x1 1 := cmpf .olt main_v0 main_v1
  let main_c : IVec S_ 1 := constantI S_ 1 1#1
  let main_v3 : IVec S_ 1 := (fun x v => Host.reduce IntOp.andi x v reducesTo_S20x1_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x20 .f32 := Host.absf main_arg2
  let main_cst_2 : FVec F S_ .f32 := constant S_ .f32 0x7F800000#32
  let main_v10 : FVec F S256x20 .f32 := broadcastInDim S256x20 ![] bcast_S_S256x20 main_cst_2
  let main_v11 : IVec S256x20 1 := cmpf .olt main_v9 main_v10
  let main_c_3 : IVec S_ 1 := constantI S_ 1 1#1
  let main_v12 : IVec S_ 1 := (fun x v => Host.reduce IntOp.andi x v reducesTo_S256x20_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_v13 main_v16
-- ==== Kernel.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S256x1 : Shape := ⟨2, ![256, 1]⟩
abbrev S1x256 : Shape := ⟨2, ![1, 256]⟩
abbrev S8192x2048 : Shape := ⟨2, ![8192, 2048]⟩
abbrev S2048x256 : Shape := ⟨2, ![2048, 256]⟩
abbrev S256x512 : Shape := ⟨2, ![256, 512]⟩
abbrev S2048x512 : Shape := ⟨2, ![2048, 512]⟩
abbrev S10240x2048 : Shape := ⟨2, ![10240, 2048]⟩
abbrev S10240 : Shape := ⟨1, ![10240]⟩

abbrev nBuf : Space → Nat
  | .hbm => 12
  | .vmem => 7
  | .smem => 0
  | _ => 0

abbrev bufTy : (tb : Table) → Fin (tcTables nBuf tb) → BufTy
  | .hbm, ⟨0, _⟩ => ⟨S20x1, .f32⟩
  | .hbm, ⟨1, _⟩ => ⟨S8192x256, .f32⟩
  | .hbm, ⟨2, _⟩ => ⟨S256x20, .f32⟩
  | .hbm, ⟨3, _⟩ => ⟨S256x2048, .f32⟩
  | .hbm, ⟨4, _⟩ => ⟨S8192, .f32⟩
  | .hbm, ⟨5, _⟩ => ⟨S2048x2048, .f32⟩
  | .hbm, ⟨6, _⟩ => ⟨S2048, .f32⟩
  | .hbm, ⟨7, _⟩ => ⟨S256x1, .f32⟩
  | .hbm, ⟨8, _⟩ => ⟨S1x256, .f32⟩
  | .hbm, ⟨9, _⟩ => ⟨S8192x2048, .f32⟩
  | .hbm, ⟨10, _⟩ => ⟨S10240x2048, .f32⟩
  | .hbm, ⟨11, _⟩ => ⟨S10240, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S2048x512, .f32⟩
  | .local _ .vmem, ⟨6, _⟩ => ⟨S2048x512, .f32⟩
  | _, _ => ⟨S20x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x1_S1x256 : S256x1.ShapeCasts S1x256
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  concatenates_S8192x2048_S2048x2048_S10240x2048_d0 : Shape.Concatenates [S8192x2048, S2048x2048] S10240x2048 0
  concatenates_S8192_S2048_S10240_d0 : Shape.Concatenates [S8192, S2048] S10240 0
  dot_S256x20_S20x1_S256x1_1_0_0_1_n_n_wf : DotDims.WF S256x20 S20x1 S256x1 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x2048.size a
  hwx0_1 : ∀ i : grid0.Coords, EltTy.bits .f32 = 32 ∨ (Rect.block (s := S256x2048) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x2048.size a
  hwx0_3 : ∀ i : grid0.Coords, EltTy.bits .f32 = 32 ∨ (Rect.block (s := S8192x2048) S2048x512.size (cc0_transform_3 i) (hinb0_3 i)).WholeWords (EltTy.packing .f32)

variable [Facts₀]

def dot_S256x20_S20x1_S256x1_1_0_0_1_n_n : DotDims S256x20 S20x1 S256x1 where
  lhsContracting := [1]
  rhsContracting := [0]
  lhsNonContracting := [0]
  rhsNonContracting := [1]
  lhsBatch := []
  rhsBatch := []
  wf := dot_S256x20_S20x1_S256x1_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20x1 : Shape := ⟨2, ![20, 1]⟩
abbrev S8192x256 : Shape := ⟨2, ![8192, 256]⟩
abbrev S256x20 : Shape := ⟨2, ![256, 20]⟩
abbrev S256x2048 : Shape := ⟨2, ![256, 2048]⟩
abbrev S8192 : Shape := ⟨1, ![8192]⟩
abbrev S2048x2048 : Shape := ⟨2, ![2048, 2048]⟩
abbrev S2048 : Shape := ⟨1, ![2048]⟩
abbrev S256x1 : Shape := ⟨2, ![256, 1]⟩
abbrev S256 : Shape := ⟨1, ![256]⟩
abbrev S1x256 : Shape := ⟨2, ![1, 256]⟩
abbrev S8192x2048 : Shape := ⟨2, ![8192, 2048]⟩
abbrev S10240x2048 : Shape := ⟨2, ![10240, 2048]⟩
abbrev S10240 : Shape := ⟨1, ![10240]⟩

abbrev nBuf : Space → Nat
  | .hbm => 15
  | .vmem => 0
  | .smem => 0
  | _ => 0

abbrev bufTy : (tb : Table) → Fin (tcTables nBuf tb) → BufTy
  | .hbm, ⟨0, _⟩ => ⟨S20x1, .f32⟩
  | .hbm, ⟨1, _⟩ => ⟨S8192x256, .f32⟩
  | .hbm, ⟨2, _⟩ => ⟨S256x20, .f32⟩
  | .hbm, ⟨3, _⟩ => ⟨S256x2048, .f32⟩
  | .hbm, ⟨4, _⟩ => ⟨S8192, .f32⟩
  | .hbm, ⟨5, _⟩ => ⟨S2048x2048, .f32⟩
  | .hbm, ⟨6, _⟩ => ⟨S2048, .f32⟩
  | .hbm, ⟨7, _⟩ => ⟨S256x1, .f32⟩
  | .hbm, ⟨8, _⟩ => ⟨S256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x2048, .f32⟩
  | .hbm, ⟨13, _⟩ => ⟨S10240x2048, .f32⟩
  | .hbm, ⟨14, _⟩ => ⟨S10240, .f32⟩
  | _, _ => ⟨S20x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  shapeCasts_S256x1_S256 : S256x1.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  concatenates_S8192x2048_S2048x2048_S10240x2048_d0 : Shape.Concatenates [S8192x2048, S2048x2048] S10240x2048 0
  concatenates_S8192_S2048_S10240_d0 : Shape.Concatenates [S8192, S2048] S10240 0
  dot_S256x20_S20x1_S256x1_1_0_0_1_n_n_wf : DotDims.WF S256x20 S20x1 S256x1 [1] [0] [0] [1] [] []
  dot_S8192x256_S256x2048_S8192x2048_1_0_0_1_n_n_wf : DotDims.WF S8192x256 S256x2048 S8192x2048 [1] [0] [0] [1] [] []

variable [Facts₀]

def dot_S256x20_S20x1_S256x1_1_0_0_1_n_n : DotDims S256x20 S20x1 S256x1 where
  lhsContracting := [1]
  rhsContracting := [0]
  lhsNonContracting := [0]
  rhsNonContracting := [1]
  lhsBatch := []
  rhsBatch := []
  wf := dot_S256x20_S20x1_S256x1_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf

class Facts : Prop extends Facts₀ where

variable [Facts]
-- ==== Proof.ScaledProduct.lean ====
/-
  The mathematics both programs compute, as one function of the argument arrays, index by index, over the
  extended reals.

  A vector `tag` of 20 entries is sent through the 256 × 20 matrix `wb`: entry `k` of the image is
  `scale wb tag k = Σ_l wb[k, l] · tag[l, 0]`. That vector scales the COLUMNS of the 8192 × 256 matrix `wa`
  (column `k` is multiplied by `scale k`, the same as multiplying on the right by the diagonal matrix of the
  scales), and the scaled matrix is multiplied with the 256 × 2048 matrix `wc`:

    `shared tag wa wb wc (i, j) = Σ_k (wa[i, k] · scale wb tag k) · wc[k, j]`.

  Nothing here is rearranged: each product keeps its two factors in this order and each sum runs over the
  contracted axis in one piece, so no law of the extended reals beyond reading the operations at an index is
  used, and finiteness of the entries plays no part.
-/
import Idealize.ShloMosaic.PureOps.Ideal
import Idealize.ShloMosaic.Lib.ValueIdx

noncomputable section

namespace Cert.ScaledProduct

open Idealize.ShloMosaic Idealize.ShloMosaic.ValueIdx

/-- Entry `k` of the image of `tag` under `wb`: the scale of column `k`. -/
def scale (wb : (⟨2, ![256, 20]⟩ : Shape).Idx → EReal) (tag : (⟨2, ![20, 1]⟩ : Shape).Idx → EReal) (k : Fin 256) : EReal :=
  ∑ l : Fin 20, wb (ix2 k l) * tag (ix2 l (0 : Fin 1))

/-- The column-scaled matrix times `wc`, at row `p` and column `q`. -/
def sharedAt (tag : (⟨2, ![20, 1]⟩ : Shape).Idx → EReal) (wa : (⟨2, ![8192, 256]⟩ : Shape).Idx → EReal)
    (wb : (⟨2, ![256, 20]⟩ : Shape).Idx → EReal) (wc : (⟨2, ![256, 2048]⟩ : Shape).Idx → EReal)
    (p : Fin 8192) (q : Fin 2048) : EReal :=
  ∑ k : Fin 256, (wa (ix2 p k) * scale wb tag k) * wc (ix2 k q)

/-- The same as an array over the 8192 × 2048 indices. -/
def shared (tag : (⟨2, ![20, 1]⟩ : Shape).Idx → EReal) (wa : (⟨2, ![8192, 256]⟩ : Shape).Idx → EReal)
    (wb : (⟨2, ![256, 20]⟩ : Shape).Idx → EReal) (wc : (⟨2, ![256, 2048]⟩ : Shape).Idx → EReal) :
    (⟨2, ![8192, 2048]⟩ : Shape).Idx → EReal :=
  fun i => sharedAt tag wa wb wc (i 0) (i 1)

end Cert.ScaledProduct

end
-- ==== Proof.ReferenceValue.lean ====
/-
  The reference's product, read at an index, is `ScaledProduct.shared` of the four arguments it depends on.

  The reference forms the 256 × 1 image of `tag` under `wb`, drops its unit axis, lays the 256 entries out
  as a row and repeats that row down the 8192 rows of `wa`; so the entry at row `r`, column `k` of the
  repeated array is the image's entry `k`, whatever `r` is. Multiplying `wa` by it entry by entry scales
  column `k` by that entry, and the product with `wc` contracts the 256 columns.
-/
import proofs.«172061_j28570122453321_1_alg».proof.Proof.Gen.ReferenceIdeal.Read
import proofs.«172061_j28570122453321_1_alg».proof.Proof.ScaledProduct

noncomputable section

namespace Cert.ReferenceIdeal.RefValue

open Cert.ReferenceIdeal Cert.ReferenceIdeal.Gen Cert.ReferenceIdeal.Read
open Idealize.ShloMosaic Idealize.ShloMosaic.ValueIdx Cert.ScaledProduct

/-- The repeated row at `(r, k)` is the image's entry `k`: the sum over the 20 entries of `tag`. -/
theorem repeated_scale_apply (x0 : (⟨S20x1, .f32⟩ : BufTy).Contents (Elt Ideal)) (x2 : (⟨S256x20, .f32⟩ : BufTy).Contents (Elt Ideal))
    (r : Fin 8192) (k : Fin 256) :
    val_main_v3 (F := Ideal) x0 x2 (ix2 r k) = scale x2 x0 k := by
  rw [val_main_v3_apply, val_main_v2_apply, val_main_v1_apply, val_main_v0_apply]
  unfold scale
  refine Finset.sum_congr rfl fun l _ => ?_
  have el : lidx_main_v0 (idx_main_v1 (idx_main_v2 (idx_main_v3 (ix2 r k)))) l = ix2 k l :=
    funext fun a => Fin.ext (by
      match a with
      | ⟨0, _⟩ => exact Nat.div_one _
      | ⟨1, _⟩ => rfl)
  have er : ridx_main_v0 (idx_main_v1 (idx_main_v2 (idx_main_v3 (ix2 r k)))) l = ix2 l (0 : Fin 1) :=
    funext fun a => Fin.ext (by
      match a with
      | ⟨0, _⟩ => rfl
      | ⟨1, _⟩ => rfl)
  rw [el, er]

/-- The reference's product of the column-scaled `wa` with `wc` is `shared`. -/
theorem product_eq_shared (x0 : (⟨S20x1, .f32⟩ : BufTy).Contents (Elt Ideal)) (x1 : (⟨S8192x256, .f32⟩ : BufTy).Contents (Elt Ideal))
    (x2 : (⟨S256x20, .f32⟩ : BufTy).Contents (Elt Ideal)) (x3 : (⟨S256x2048, .f32⟩ : BufTy).Contents (Elt Ideal)) :
    val_main_v5 (F := Ideal) x0 x1 x2 x3 = shared x0 x1 x2 x3 := by
  funext i
  obtain ⟨p, q, rfl⟩ : ∃ (p : Fin 8192) (q : Fin 2048), i = ix2 p q := ⟨i 0, i 1, eq_ix2 i⟩
  rw [val_main_v5_apply]
  show _ = sharedAt x0 x1 x2 x3 p q
  unfold sharedAt
  refine Finset.sum_congr rfl fun k _ => ?_
  have hl : lidx_main_v5 (ix2 p q) k = ix2 p k :=
    funext fun a => Fin.ext (by
      match a with
      | ⟨0, _⟩ => rfl
      | ⟨1, _⟩ => rfl)
  have hr : ridx_main_v5 (ix2 p q) k = ix2 k q :=
    funext fun a => Fin.ext (by
      match a with
      | ⟨0, _⟩ => rfl
      | ⟨1, _⟩ => rfl)
  rw [hl, hr, val_main_v4_apply, repeated_scale_apply]
  rfl

end Cert.ReferenceIdeal.RefValue

end
-- ==== Proof.KernelBlock.lean ====
/-
  What the kernel body computes for one grid point, read at an index of its 2048 × 512 result block.

  The body loads a 2048 × 256 block `a` of `wa`, the 1 × 256 row `s` of column scales and a 256 × 512 block `c` of
  `wc`; it repeats the row down the 2048 rows, multiplies entry by entry (so column `k` of `a` is scaled by `s[0, k]`),
  narrows both factors to bf16 — the identity on the extended reals — and multiplies the two matrices into a zero
  accumulator. So the entry at row `p`, column `q` of the block it stores is

    `Σ_k (a[p, k] · s[0, k]) · c[k, q]`,

  the sum over the 256 contracted columns.
-/
import proofs.«172061_j28570122453321_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen
open Idealize.ShloMosaic Idealize.ShloMosaic.ValueIdx

/-! ## The block product's index maps, axis by axis

The product contracts axis 1 of the left block with axis 0 of the right block; the result's row is the left block's
row and the result's column is the right block's column. -/

/-- The left factor is read at the result's row … -/
theorem lhs_block_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- … and at the contracted column; -/
theorem lhs_block_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- the right factor at the contracted row … -/
theorem rhs_block_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
/-- … and at the result's column. -/
theorem rhs_block_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-! ## The stored block at an index -/

/-- Entry `(p, q)` of the block the body stores, from the three blocks it loads. -/
theorem stored_apply (a : FVec Ideal S2048x256 .f32) (s : FVec Ideal S1x256 .f32) (c : FVec Ideal S256x512 .f32)
    (p : Fin 2048) (q : Fin 512) :
    k0_pay1 (F := Ideal) a s c (ix2 p q)
      = ∑ k : Fin 256, (a (ix2 p k) * s (ix2 (0 : Fin 1) k)) * c (ix2 k q) := by
  unfold k0_pay1
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p q) ((contrEquiv1 dot_S2048x256_S256x512_S2048x512_1_0_0_1_n_n 256 rfl rfl).symm k) = ix2 p k := funext fun ax => Fin.ext (by
    match ax with
    | ⟨0, _⟩ => exact lhs_block_0 _ _
    | ⟨1, _⟩ => exact (lhs_block_1 _ _).trans hk)
  have er : dot_S2048x256_S256x512_S2048x512_1_0_0_1_n_n.rhsIdx (ix2 p q) ((contrEquiv1 dot_S2048x256_S256x512_S2048x512_1_0_0_1_n_n 256 rfl rfl).symm k) = ix2 k q := funext fun ax => Fin.ext (by
    match ax with
    | ⟨0, _⟩ => exact (rhs_block_0 _ _).trans hk
    | ⟨1, _⟩ => exact rhs_block_1 _ _)
  rw [el, er, truncf_apply, truncf_apply, mulf_apply, shapeCast_self, broadcastTo_1b_ab_apply]

end Cert.KernelIdeal.Block

end
-- ==== Proof.KernelScale.lean ====
/-
  The row of column scales as the kernel's region finds it.

  Before the region the program multiplies the 256 × 20 matrix `wb` with the 20 × 1 column `tag` and lays the
  256 × 1 result out as a 1 × 256 row. Both arrays are stored row-major, so entry `(0, k)` of the row is entry
  `(k, 0)` of the column, which is `Σ_l wb[k, l] · tag[l, 0]`: the scale of column `k`.
-/
import proofs.«172061_j28570122453321_1_alg».proof.Proof.Gen.KernelIdeal.Frame
import proofs.«172061_j28570122453321_1_alg».proof.Proof.ScaledProduct
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Scale

open Cert.KernelIdeal Cert.KernelIdeal.Gen Cert.ScaledProduct
open Idealize.ShloMosaic Idealize.ShloMosaic.TcCoe Idealize.ShloMosaic.ValueIdx Idealize.ShloMosaic.StableHlo Idealize.SL.Sem

/-! ## The small product's index maps, axis by axis -/

/-- The left factor `wb` is read at the result's row … -/
theorem lhs_image_0 (i : S256x1.Idx) (q : dot_S256x20_S20x1_S256x1_1_0_0_1_n_n.contr.Idx) :
    (dot_S256x20_S20x1_S256x1_1_0_0_1_n_n.lhsIdx i q 0).val = (i 0).val := by
  unfold DotDims.lhsIdx
  rw [dif_neg (show ¬(0 : Fin S256x20.rank) ∈ dot_S256x20_S20x1_S256x1_1_0_0_1_n_n.lhsBatch by decide), dif_pos (show (0 : Fin S256x20.rank) ∈ dot_S256x20_S20x1_S256x1_1_0_0_1_n_n.lhsNonContracting by decide)]
  rfl
/-- … and at the contracted column; -/
theorem lhs_image_1 (i : S256x1.Idx) (q : dot_S256x20_S20x1_S256x1_1_0_0_1_n_n.contr.Idx) :
    (dot_S256x20_S20x1_S256x1_1_0_0_1_n_n.lhsIdx i q 1).val = (q ⟨0, by decide⟩).val :=
  dot_S256x20_S20x1_S256x1_1_0_0_1_n_n.lhsIdx_val_of_single rfl i q
/-- the right factor `tag` at the contracted row … -/
theorem rhs_image_0 (i : S256x1.Idx) (q : dot_S256x20_S20x1_S256x1_1_0_0_1_n_n.contr.Idx) :
    (dot_S256x20_S20x1_S256x1_1_0_0_1_n_n.rhsIdx i q 0).val = (q ⟨0, by decide⟩).val :=
  dot_S256x20_S20x1_S256x1_1_0_0_1_n_n.rhsIdx_val_of_single rfl i q
/-- … and at the result's (only) column. -/
theorem rhs_image_1 (i : S256x1.Idx) (q : dot_S256x20_S20x1_S256x1_1_0_0_1_n_n.contr.Idx) :
    (dot_S256x20_S20x1_S256x1_1_0_0_1_n_n.rhsIdx i q 1).val = (i 1).val := by
  unfold DotDims.rhsIdx
  rw [dif_neg (show ¬(1 : Fin S20x1.rank) ∈ dot_S256x20_S20x1_S256x1_1_0_0_1_n_n.rhsBatch by decide), dif_pos (show (1 : Fin S20x1.rank) ∈ dot_S256x20_S20x1_S256x1_1_0_0_1_n_n.rhsNonContracting by decide)]
  rfl

/-- Entry `(k, 0)` of the image of `tag` under `wb` is the scale of column `k`. -/
theorem image_apply (wb : FVec Ideal S256x20 .f32) (tag : FVec Ideal S20x1 .f32) (k : Fin 256) :
    Host.dotGeneral (F := Ideal) dot_S256x20_S20x1_S256x1_1_0_0_1_n_n none wb tag (ix2 k (0 : Fin 1)) = scale wb tag k := by
  unfold scale
  simp only [Host.dotGeneral]
  rw [Ideal.dotGeneral_apply, ← Equiv.sum_comp (contrEquiv1 dot_S256x20_S20x1_S256x1_1_0_0_1_n_n 20 rfl rfl).symm]
  refine Finset.sum_congr rfl fun l _ => ?_
  have hl := contrEquiv1_symm_val dot_S256x20_S20x1_S256x1_1_0_0_1_n_n 20 rfl rfl l
  have el : dot_S256x20_S20x1_S256x1_1_0_0_1_n_n.lhsIdx (ix2 k (0 : Fin 1)) ((contrEquiv1 dot_S256x20_S20x1_S256x1_1_0_0_1_n_n 20 rfl rfl).symm l) = ix2 k l := funext fun ax => Fin.ext (by
    match ax with
    | ⟨0, _⟩ => exact lhs_image_0 _ _
    | ⟨1, _⟩ => exact (lhs_image_1 _ _).trans hl)
  have er : dot_S256x20_S20x1_S256x1_1_0_0_1_n_n.rhsIdx (ix2 k (0 : Fin 1)) ((contrEquiv1 dot_S256x20_S20x1_S256x1_1_0_0_1_n_n 20 rfl rfl).symm l) = ix2 l (0 : Fin 1) := funext fun ax => Fin.ext (by
    match ax with
    | ⟨0, _⟩ => exact (rhs_image_0 _ _).trans hl
    | ⟨1, _⟩ => exact rhs_image_1 _ _)
  rw [el, er]

/-! ## The row the region finds -/

variable (m : (ℓ : Loc nD τ sig) → Buf (Elt Ideal) ℓ)

/-- The array the third window stages is the image of `tag` under `wb`, laid out as a row. -/
theorem row_eq (c : Dev nD) :
    (V m c main_v1 : S1x256.Idx → EReal)
      = shapeCast S1x256 (Host.dotGeneral (F := Ideal) (φ₁ := .f32) (φ₂ := .f32) dot_S256x20_S20x1_S256x1_1_0_0_1_n_n none
          (m ((c : Thread nD τ).loc main_arg2)) (m ((c : Thread nD τ).loc main_arg0))) shapeCasts_S256x1_S1x256 := by
  show StableHlo.after hostOps0 (fun b => m (c, b)) (Proc.devRef .tc main_v1) = _
  after_results
  rfl

/-- Its entry `(0, k)` is the scale of column `k`. -/
theorem row_apply (c : Dev nD) (k : Fin 256) :
    (V m c main_v1 : S1x256.Idx → EReal) (ix2 (0 : Fin 1) k)
      = scale (m ((c : Thread nD τ).loc main_arg2)) (m ((c : Thread nD τ).loc main_arg0)) k := by
  rw [row_eq]
  refine (shapeCast_apply _ shapeCasts_S256x1_S1x256 (ix2 (0 : Fin 1) k) (ix2 k (0 : Fin 1)) ?_).trans (image_apply _ _ k)
  rw [Shape.rowMajor_val_two, Shape.rowMajor_val_two]
  show k.val * 1 + 0 = 0 * 256 + k.val
  omega

end Cert.KernelIdeal.Scale

end
-- ==== Proof.KernelValue.lean ====
/-
  The array the kernel's region leaves: `ScaledProduct.shared` of the arguments as launched.

  The region runs over a 4 × 4 grid. Point `t` has a block row `b₀` and a block column `b₁` (both below 4): it
  stages rows `b₀·2048 …` of `wa` (all 256 columns), columns `b₁·512 …` of `wc` (all 256 rows) and the whole row of
  scales, and writes back the 2048 × 512 block of the result at block position `(b₀, b₁)`. Entry `(p, q)` of that
  block is the body's sum over the 256 contracted columns, whose factors are `wa` at row `b₀·2048 + p`, the scale
  of the column, and `wc` at column `b₁·512 + q`: the entry of `shared` at `(b₀·2048 + p, b₁·512 + q)`. The sixteen
  blocks tile the 8192 × 2048 array, so after the last write-back the array is `shared` everywhere.
-/
import proofs.«172061_j28570122453321_1_alg».proof.Proof.Gen.KernelIdeal.Frame
import proofs.«172061_j28570122453321_1_alg».proof.Proof.ScaledProduct
import proofs.«172061_j28570122453321_1_alg».proof.Proof.KernelBlock
import proofs.«172061_j28570122453321_1_alg».proof.Proof.KernelScale
import Idealize.ShloMosaic.Lib.Pipeline.Value
import Idealize.ShloMosaic.Lib.ValueIdx

set_option maxRecDepth 16384

noncomputable section

namespace Cert.KernelIdeal.SharedValue

open Cert.KernelIdeal Cert.KernelIdeal.Gen Cert.ScaledProduct
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Every access of the body starts at the corner of its buffer. -/
theorem corner : (![0, 0] : Fin 2 → Nat) = fun _ => 0 := funext fun a => by fin_cases a <;> rfl

/-- `shared` of the four arguments it depends on, as core `c` was launched with them. -/
abbrev sharedOf (c : Dev nD) : S8192x2048.Idx → EReal :=
  shared (m ((c : Thread nD τ).loc main_arg0)) (m ((c : Thread nD τ).loc main_arg1))
    (m ((c : Thread nD τ).loc main_arg2)) (m ((c : Thread nD τ).loc main_arg3))

/-! ## The grid's block positions -/

/-- At every point the block of `wa` is in the result's block row and in block column 0, the block of `wc` in block
    row 0 and in the result's block column, the row of scales is the one block there is, and the result's block
    position is below 4 on both axes. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = 0
    ∧ win0_3.index t (0 : Fin 2) ≤ 3 ∧ win0_3.index t (1 : Fin 2) ≤ 3 :=
  (by decide +kernel : ∀ t : Fin grid0.N, _)

/-- Every block position is some point's. -/
theorem position_onto : ∀ (b0 : Fin 4) (b1 : Fin 4), ∃ t : Fin cfg0.N, win0_3.index t = ![b0.val, b1.val] :=
  (by decide +kernel : ∀ (b0 : Fin 4) (b1 : Fin 4), ∃ t : Fin grid0.N, win0_3.index t = ![b0.val, b1.val])

/-- The row of the whole array that row `p` of point `t`'s block is. -/
def rowOf (t : Fin cfg0.N) (p : Fin 2048) : Fin 8192 :=
  ⟨win0_3.index t (0 : Fin 2) * 2048 + p.val, by
    have h := (block_positions t).2.2.2.2.2.2.1
    have hp := p.isLt
    omega⟩

/-- The column of the whole array that column `q` of point `t`'s block is. -/
def colOf (t : Fin cfg0.N) (q : Fin 512) : Fin 2048 :=
  ⟨win0_3.index t (1 : Fin 2) * 512 + q.val, by
    have h := (block_positions t).2.2.2.2.2.2.2
    have hq := q.isLt
    omega⟩

/-! ## The staged blocks, entry by entry -/

/-- Entry `(p, k)` of the staged block of `wa` is `wa` at the block's row `p` and column `k`. -/
theorem wa_block_apply (c : Dev nD) (t : Fin cfg0.N) (p : Fin 2048) (k : Fin 256) :
    iblk m c 0 t (ix2 p k) = m ((c : Thread nD τ).loc main_arg1) (ix2 (rowOf t p) k) := by
  show V m c main_arg1 (((cfg0.win 0).blk t).view.emb (ix2 p k)) = _
  rw [V_main_arg1]
  refine congrArg _ ?_
  obtain ⟨e00, e01, -⟩ := block_positions t
  funext a; apply Fin.ext
  match a with
  | ⟨0, _⟩ => show win0_0.index t (0 : Fin 2) * 2048 + 1 * p.val = win0_3.index t (0 : Fin 2) * 2048 + p.val; omega
  | ⟨1, _⟩ => show win0_0.index t (1 : Fin 2) * 256 + 1 * k.val = k.val; omega

/-- Entry `(k, q)` of the staged block of `wc` is `wc` at row `k` and the block's column `q`. -/
theorem wc_block_apply (c : Dev nD) (t : Fin cfg0.N) (k : Fin 256) (q : Fin 512) :
    iblk m c 1 t (ix2 k q) = m ((c : Thread nD τ).loc main_arg3) (ix2 k (colOf t q)) := by
  show V m c main_arg3 (((cfg0.win 1).blk t).view.emb (ix2 k q)) = _
  rw [V_main_arg3]
  refine congrArg _ ?_
  obtain ⟨-, -, e10, e11, -⟩ := block_positions t
  funext a; apply Fin.ext
  match a with
  | ⟨0, _⟩ => show win0_1.index t (0 : Fin 2) * 256 + 1 * k.val = k.val; omega
  | ⟨1, _⟩ => show win0_1.index t (1 : Fin 2) * 512 + 1 * q.val = win0_3.index t (1 : Fin 2) * 512 + q.val; omega

/-- Entry `(0, k)` of the staged row is the scale of column `k`. -/
theorem scale_block_apply (c : Dev nD) (t : Fin cfg0.N) (k : Fin 256) :
    iblk m c 2 t (ix2 (0 : Fin 1) k)
      = scale (m ((c : Thread nD τ).loc main_arg2)) (m ((c : Thread nD τ).loc main_arg0)) k := by
  show V m c main_v1 (((cfg0.win 2).blk t).view.emb (ix2 (0 : Fin 1) k)) = _
  refine Eq.trans (congrArg _ ?_) (Scale.row_apply m c k)
  obtain ⟨-, -, -, -, e20, e21, -⟩ := block_positions t
  funext a; apply Fin.ext
  match a with
  | ⟨0, _⟩ => show win0_2.index t (0 : Fin 2) * 1 + 1 * 0 = 0; omega
  | ⟨1, _⟩ => show win0_2.index t (1 : Fin 2) * 256 + 1 * k.val = k.val; omega

/-- Entry `(p, q)` of the result's block at point `t` sits at `(rowOf t p, colOf t q)` in the array. -/
theorem result_position (t : Fin cfg0.N) (p : Fin 2048) (q : Fin 512) :
    ((cfg0.win 3).blk t).view.emb (ix2 p q) = ix2 (rowOf t p) (colOf t q) := by
  funext a; apply Fin.ext
  match a with
  | ⟨0, _⟩ => show win0_3.index t (0 : Fin 2) * 2048 + 1 * p.val = win0_3.index t (0 : Fin 2) * 2048 + p.val; omega
  | ⟨1, _⟩ => show win0_3.index t (1 : Fin 2) * 512 + 1 * q.val = win0_3.index t (1 : Fin 2) * 512 + q.val; omega

/-! ## What a point writes back -/

/-- Point `t` writes back its block of `shared`. -/
theorem written_back (c : Dev nD) (t : Fin cfg0.N) :
    (dats m 0 c).flushed 3 t = ((cfg0.win 3).blk t).view.read (Elt Ideal) (sharedOf m c) := by
  show (cfg0.win 3).cut (grid0.coords t) ((dats m 0 c).after 3 t) = _
  rw [after0_3]
  unfold out0_3
  rw [View.canon_unit_zero corner]
  simp only [View.ld_unit_zero (S := S2048x256) corner, View.ld_unit_zero (S := S1x256) corner, View.ld_unit_zero (S := S256x512) corner]
  funext j
  obtain ⟨p, q, rfl⟩ : ∃ (p : Fin 2048) (q : Fin 512), j = ix2 p q := ⟨j 0, j 1, eq_ix2 j⟩
  show k0_pay1 (F := Ideal) (iblk m c 0 t) (iblk m c 2 t) (iblk m c 1 t) (ix2 p q)
    = sharedOf m c (((cfg0.win 3).blk t).view.emb (ix2 p q))
  rw [result_position]
  refine (Block.stored_apply (iblk m c 0 t) (iblk m c 2 t) (iblk m c 1 t) p q).trans ?_
  show _ = sharedAt _ _ _ _ (rowOf t p) (colOf t q)
  unfold sharedAt
  refine Finset.sum_congr rfl fun k _ => ?_
  rw [wa_block_apply, wc_block_apply, scale_block_apply]

/-! ## The array after the run -/

/-- An index of the array is in point `t`'s block iff each coordinate is in the block's range on its axis. -/
theorem mem_block (t : Fin cfg0.N) (i : S8192x2048.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v2).slice (win0_3.rect t)).set ↔ _
  rw [View.set_slice_whole, Rect.mem_set_unit]
  exact Iff.rfl

/-- Every index is in the block of the point whose block row holds its row and whose block column holds its column. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := position_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- After the run the region's result array is `shared` of the arguments. -/
theorem final (c : Dev nD) : (dats m 0 c).arrAt 3 cfg0.N = sharedOf m c :=
  (dats m 0 c).arrAt_eq_of_cover 3 (sharedOf m c) (fun t _ => written_back m c t) (covered)

end Cert.KernelIdeal.SharedValue

end
-- ==== Proof.KernelRun.lean ====
/-
  The idealized kernel's run with both results named.

  After the region the program stacks the region's 8192 × 2048 result on top of the 2048 × 2048 argument
  `individual_weight`, and stacks the two bias vectors. The region's array is `shared` of the arguments (the value
  module), no line after the region writes an argument, and the stacking lines read the region's array and the
  arguments as they are then; so the first result is `shared` stacked on `individual_weight` and the second the two
  biases stacked, each as a function of the arguments as launched.
-/
import proofs.«172061_j28570122453321_1_alg».proof.Proof.KernelValue
import Idealize.ShloMosaic.Lib.StableHlo.Run

set_option maxRecDepth 16384

noncomputable section

namespace Cert.KernelIdeal.SharedValue

open Cert.KernelIdeal Cert.KernelIdeal.Gen Cert.ScaledProduct
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The first result after the lines that follow the region: `shared` on top of `individual_weight`. -/
theorem stacked_weights (c : Dev nD) :
    Pipeline.afterTail₀ cfgs (dats m) 0 (V0 m) [hostOps1] c main_v3
      = concatenate S10240x2048 0 [⟨S8192x2048, sharedOf m c⟩, ⟨S2048x2048, m ((c : Thread nD τ).loc main_arg5)⟩] concatenates_S8192x2048_S2048x2048_S10240x2048_d0 := by
  unfold Pipeline.afterTail₀
  show StableHlo.after hostOps1 _ (Proc.devRef .tc main_v3) = _
  after_results
  rw [Pipeline.withArrays_arr spec0 launch0.win.arr_inj c _ _ 3, final,
    Pipeline.withArrays_of_ne _ c (V0 m c) _ main_arg5 (by exact (by decide : ∀ w, Pipeline.arrRef spec0 w ≠ main_arg5))]
  exact congrArg (fun b => concatenate S10240x2048 0 [⟨S8192x2048, sharedOf m c⟩, ⟨S2048x2048, b⟩] concatenates_S8192x2048_S2048x2048_S10240x2048_d0) (V_main_arg5 m c)

/-- The second result: `bias` followed by `individual_bias`. -/
theorem stacked_biases (c : Dev nD) :
    Pipeline.afterTail₀ cfgs (dats m) 0 (V0 m) [hostOps1] c main_v4
      = concatenate S10240 0 [⟨S8192, m ((c : Thread nD τ).loc main_arg4)⟩, ⟨S2048, m ((c : Thread nD τ).loc main_arg6)⟩] concatenates_S8192_S2048_S10240_d0 := by
  unfold Pipeline.afterTail₀
  show StableHlo.after hostOps1 _ (Proc.devRef .tc main_v4) = _
  after_results
  rw [Pipeline.withArrays_of_ne _ c (V0 m c) _ main_arg4 (by exact (by decide : ∀ w, Pipeline.arrRef spec0 w ≠ main_arg4)),
    Pipeline.withArrays_of_ne _ c (V0 m c) _ main_arg6 (by exact (by decide : ∀ w, Pipeline.arrRef spec0 w ≠ main_arg6))]
  exact congrArg₂ (fun a b => concatenate S10240 0 [⟨S8192, a⟩, ⟨S2048, b⟩] concatenates_S8192_S2048_S10240_d0) (V_main_arg4 m c) (V_main_arg6 m c)

/-- Every weakly fair execution of the idealized kernel's program ends with the first result at `shared` stacked
    on `individual_weight`, the second at the stacked biases, and every argument as launched. -/
theorem run : θ_run defs (onTc (τ := τ) (main (F := Ideal))) ⟨m, fun _ => 0, ρ⟩ fun r => ∀ c : Dev nD,
      r.2.mem ((c : Thread nD τ).loc main_v3) = concatenate S10240x2048 0 [⟨S8192x2048, sharedOf m c⟩, ⟨S2048x2048, m ((c : Thread nD τ).loc main_arg5)⟩] concatenates_S8192x2048_S2048x2048_S10240x2048_d0
      ∧ r.2.mem ((c : Thread nD τ).loc main_v4) = concatenate S10240 0 [⟨S8192, m ((c : Thread nD τ).loc main_arg4)⟩, ⟨S2048, m ((c : Thread nD τ).loc main_arg6)⟩] concatenates_S8192_S2048_S10240_d0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v3 (Pipeline.mem_restRefs_of main_v3 (by decide) (by decide))).trans (stacked_weights m c),
      ((h c).2 main_v4 (Pipeline.mem_restRefs_of main_v4 (by decide) (by decide))).trans (stacked_biases m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.SharedValue

end
-- ==== Proof.lean ====
/- Both programs compute, from a 20-entry vector `tag` and matrices `wa` (8192 × 256), `wb` (256 × 20), `wc` (256 × 2048),
   the matrix `shared = (wa · diag(wb · tag)) · wc` — column `k` of `wa` scaled by entry `k` of `wb · tag`, then the
   product with `wc` — and return it stacked on `individual_weight`, together with `bias` followed by
   `individual_bias`.

   The kernel forms `wb · tag` before its region, lays it out as a row, and computes `shared` in sixteen
   2048 × 512 blocks: each grid point scales the columns of its 2048 rows of `wa` by the row, narrows both factors to
   bf16 (the identity on the extended reals) and multiplies into a zero accumulator. The reference scales all of `wa`
   at once and multiplies once. Over the extended reals both are, entry by entry,
   `Σ_k (wa[i, k] · Σ_l wb[k, l] · tag[l, 0]) · wc[k, j]` with the factors in this order and the sums over the same
   index sets (Proof/ScaledProduct.lean), so the two results agree by reading each operation at an index: no
   rearrangement of a sum or a product is needed, and the finiteness of the inputs is not used.

   Proof/ReferenceValue.lean reads the reference's product; Proof/KernelBlock.lean the body's block at an index;
   Proof/KernelScale.lean the row of scales the region finds; Proof/KernelValue.lean what each point writes back and
   that the blocks tile the array; Proof/KernelRun.lean the lines after the region. The three frames are the
   generated ones (the reference's is its run with the results dropped), and the kernel's idealization rewrote no
   operation, so there is nothing to preserve. -/
import proofs.«172061_j28570122453321_1_alg».proof.Defs
import proofs.«172061_j28570122453321_1_alg».proof.Proof.Gen.Kernel
import proofs.«172061_j28570122453321_1_alg».proof.Proof.Gen.Kernel.Skeleton
import proofs.«172061_j28570122453321_1_alg».proof.Proof.Gen.Kernel.Launch
import proofs.«172061_j28570122453321_1_alg».proof.Proof.Gen.Kernel.Points
import proofs.«172061_j28570122453321_1_alg».proof.Proof.Gen.Kernel.Frame
import proofs.«172061_j28570122453321_1_alg».proof.Proof.Gen.KernelIdeal
import proofs.«172061_j28570122453321_1_alg».proof.Proof.Gen.KernelIdeal.Skeleton
import proofs.«172061_j28570122453321_1_alg».proof.Proof.Gen.KernelIdeal.Launch
import proofs.«172061_j28570122453321_1_alg».proof.Proof.Gen.KernelIdeal.Points
import proofs.«172061_j28570122453321_1_alg».proof.Proof.Gen.KernelIdeal.Frame
import proofs.«172061_j28570122453321_1_alg».proof.Proof.Gen.ReferenceIdeal
import proofs.«172061_j28570122453321_1_alg».proof.Proof.Gen.Pre_finite_inputs
import proofs.«172061_j28570122453321_1_alg».proof.Proof.Gen.ReferenceIdeal.Run
import proofs.«172061_j28570122453321_1_alg».proof.Proof.Gen.ReferenceIdeal.Read
import proofs.«172061_j28570122453321_1_alg».proof.Proof.ReferenceValue
import proofs.«172061_j28570122453321_1_alg».proof.Proof.KernelRun
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with `shared` stacked on `individual_weight` and
    with the stacked biases: the kernel by its run with the results named, the reference by its run with its product
    read as `shared`. -/
theorem algebraic : Cert.algebraic_KernelIdeal_ReferenceIdeal := by
  intro m ρ m' ρ' _ hagree
  refine ⟨_, _, Cert.KernelIdeal.SharedValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, -, h5, -⟩ := hagree c
    rw [Cert.ReferenceIdeal.Read.val_main_v6_eq]
    unfold Cert.ReferenceIdeal.Read.val_main_v6
    rw [Cert.ReferenceIdeal.RefValue.product_eq_shared, h0, h1, h2, h3, h5]
  · obtain ⟨-, -, -, -, h4, -, h6⟩ := hagree c
    rw [h4, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
